-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S1600000 : Shape := ⟨1, ![1600000]⟩
abbrev S128x256 : Shape := ⟨2, ![128, 256]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S1600000 : S_.BroadcastsInDim S1600000 (![] : Fin 0 → Fin S1600000.rank)
  reducesTo_S1600000_S_d0 : S1600000.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S50000x128 .f32) (main_arg2 : IVec S1600000 32) (main_arg3 : IVec S1600000 32) (main_arg4 : FVec F S1600000 .f32) (main_arg5 : FVec F S128x256 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_v13 main_v16
-- ==== Kernel.lean ====
abbrev S100000x128 : Shape := ⟨2, ![100000, 128]⟩
abbrev S50000x128 : Shape := ⟨2, ![50000, 128]⟩
abbrev S1600000 : Shape := ⟨1, ![1600000]⟩
abbrev S128x256 : Shape := ⟨2, ![128, 256]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S128x128 : Shape := ⟨2, ![128, 128]⟩
abbrev S1x128 : Shape := ⟨2, ![1, 128]⟩
abbrev S5000x128 : Shape := ⟨2, ![5000, 128]⟩

abbrev nBuf : Space → Nat
  | .hbm => 47
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S128x256, .f32⟩
  | .hbm, ⟨6, _⟩ => ⟨S128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S128x128, .f32⟩
  | .hbm, ⟨24, _⟩ => ⟨S128x128, .f32⟩
  | .hbm, ⟨25, _⟩ => ⟨S128x128, .bf16⟩
  | .hbm, ⟨26, _⟩ => ⟨S128x128, .f32⟩
  | .hbm, ⟨27, _⟩ => ⟨S128x128, .f32⟩
  | .hbm, ⟨28, _⟩ => ⟨S128x128, .bf16⟩
  | .hbm, ⟨29, _⟩ => ⟨S1x128, .f32⟩
  | .hbm, ⟨30, _⟩ => ⟨S100000x128, .f32⟩
  | .hbm, ⟨31, _⟩ => ⟨S1600000x1, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S1600000x128, .f32⟩
  | .hbm, ⟨42, _⟩ => ⟨S1600000x128, .f32⟩
  | .hbm, ⟨43, _⟩ => ⟨S_, .f32⟩
  | .hbm, ⟨44, _⟩ => ⟨S50000x128, .f32⟩
  | .hbm, ⟨45, _⟩ => ⟨S1600000x1, .i32⟩
  | .hbm, ⟨46, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S128x256_S128x128_0_0 : S128x256.Slices ![0, 0] S128x128
  transposes_S128x128_S128x128_1_0 : S128x128.Transposes [1, 0] S128x128
  bitsLt_bf16_f32 : FTy.bits .bf16 < FTy.bits .f32
  slices_S128x256_S128x128_0_128 : S128x256.Slices ![0, 128] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S50000x128 : S_.BroadcastsInDim S50000x128 (![] : Fin 0 → Fin S50000x128.rank)
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S1600000 : Shape := ⟨1, ![1600000]⟩
abbrev S128x256 : Shape := ⟨2, ![128, 256]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S100000x256 : Shape := ⟨2, ![100000, 256]⟩
abbrev S256x128 : Shape := ⟨2, ![256, 128]⟩
abbrev S1x128 : Shape := ⟨2, ![1, 128]⟩

abbrev nBuf : Space → Nat
  | .hbm => 46
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S128x256, .f32⟩
  | .hbm, ⟨6, _⟩ => ⟨S128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x128, .f32⟩
  | .hbm, ⟨24, _⟩ => ⟨S100000x256, .f32⟩
  | .hbm, ⟨25, _⟩ => ⟨S256x128, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S1600000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S1600000x128, .f32⟩
  | .hbm, ⟨41, _⟩ => ⟨S1600000x128, .f32⟩
  | .hbm, ⟨42, _⟩ => ⟨S_, .f32⟩
  | .hbm, ⟨43, _⟩ => ⟨S50000x128, .f32⟩
  | .hbm, ⟨44, _⟩ => ⟨S1600000x1, .i32⟩
  | .hbm, ⟨45, _⟩ => ⟨S50000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S100000x128_S100000x128_S100000x256_d1 : Shape.Concatenates [S100000x128, S100000x128] S100000x256 1
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S50000x128 : S_.BroadcastsInDim S50000x128 (![] : Fin 0 → Fin S50000x128.rank)
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

class Facts : Prop extends Facts₀ where

variable [Facts]
-- ==== Proof.Spec.lean ====
/-
  The three stages of the hypergraph message pass, as functions of the arrays, at the ideal values.

  * `nodeMsg`: every edge e takes row cols[e] of the item table (an index below zero counted from the end),
    scales it by vals[e], and the scaled rows are added up per user row rows[e].
  * `msgAt` / `msgOf`: a user's message row is   Σ_k nm[r,k]·W[q,k]  +  Σ_k (nm[r,k]·ue[r,k])·W[q,128+k]  +  b[q]:
    the linear layer applied to the node message followed by the gated node message, with the 256 input
    columns of W written as its two halves.
  * `tailOf`: every edge takes row rows[e] of the messages, scales it by vals[e], and the scaled rows are
    added up per item row cols[e].
  The first and the last stage are the same host operations in both programs; only the middle one is computed
  in two different ways.
-/
import proofs.«152994_j19146964205949_1_alg».proof.Proof.Gen.KernelIdeal
import Idealize.ShloMosaic.Lib.ValueIdx
import Idealize.ShloMosaic.PureOps.Ideal

noncomputable section

namespace Cert.Hyper

open Cert.KernelIdeal Cert.KernelIdeal.Facts₀ Idealize.ShloMosaic Idealize.ShloMosaic.ValueIdx

/-- The node messages: gather item rows by edge column, scale by the edge value, add up by edge row. -/
def nodeMsg (item : Vec Ideal S50000x128 .f32) (rows cols : Vec Ideal S1600000 .i32) (vals : Vec Ideal S1600000 .f32) :
    Vec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 rows)
    (mulf (F := Ideal)
      (broadcastInDim S1600000x128 ![0, 1] bcast_S1600000x1_S1600000x128_0_1
        (broadcastInDim S1600000x1 ![0] bcast_S1600000_S1600000x1_0 vals))
      (Host.gather gather_S50000x128_S1600000x1_S1600000x128_1_0_n_n_0_1_1128 item
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 50000#32))) cols))))

/-- One element of the message array: user row `r`, output column `q`. -/
def msgAt (nm ue : Vec Ideal S100000x128 .f32) (W : Vec Ideal S128x256 .f32) (b : Vec Ideal S128 .f32)
    (r : Fin 100000) (q : Fin 128) : EReal :=
  (∑ k : Fin 128, nm (ix2 r k) * W (ix2 q (⟨k.val, by omega⟩ : Fin 256)))
    + (∑ k : Fin 128, (nm (ix2 r k) * ue (ix2 r k)) * W (ix2 q (⟨128 + k.val, by omega⟩ : Fin 256)))
    + b (ix1 q)

/-- The message array. -/
def msgOf (nm ue : Vec Ideal S100000x128 .f32) (W : Vec Ideal S128x256 .f32) (b : Vec Ideal S128 .f32) :
    Vec Ideal S100000x128 .f32 :=
  fun i => msgAt nm ue W b (i 0) (i 1)

theorem msgOf_apply (nm ue : Vec Ideal S100000x128 .f32) (W : Vec Ideal S128x256 .f32) (b : Vec Ideal S128 .f32)
    (r : Fin 100000) (q : Fin 128) : msgOf nm ue W b (ix2 r q) = msgAt nm ue W b r q := rfl

/-- The normalised item embeddings: gather message rows by edge row, scale by the edge value, add up by edge
    column. -/
def tailOf (msg : Vec Ideal S100000x128 .f32) (rows cols : Vec Ideal S1600000 .i32) (vals : Vec Ideal S1600000 .f32) :
    Vec Ideal S50000x128 .f32 :=
  Host.scatterAdd scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 cols)
    (mulf (F := Ideal)
      (broadcastInDim S1600000x128 ![0, 1] bcast_S1600000x1_S1600000x128_0_1
        (broadcastInDim S1600000x1 ![0] bcast_S1600000_S1600000x1_0 vals))
      (Host.gather gather_S100000x128_S1600000x1_S1600000x128_1_0_n_n_0_1_1128 msg
        (broadcastInDim S1600000x1 ![0] bcast_S1600000_S1600000x1_0
          (select (cmpi .slt rows (broadcastInDim S1600000 ![] bcast_S_S1600000 (constantI S_ 32 0#32)))
            (addi rows (broadcastInDim S1600000 ![] bcast_S_S1600000 (constantI S_ 32 100000#32))) rows))))

/-- A sum over 256 positions is the sum over the first 128 plus the sum over the last 128 (addition of
    extended reals is commutative and associative, so no finiteness is needed). -/
theorem sum_two_halves (f : Fin 256 → EReal) :
    ∑ k : Fin 256, f k = (∑ k : Fin 128, f ⟨k.val, by omega⟩) + ∑ k : Fin 128, f ⟨128 + k.val, by omega⟩ :=
  Fin.sum_univ_add (fun i : Fin (128 + 128) => f i)

end Cert.Hyper

end
-- ==== Proof.Operands.lean ====
/-
  What the body's five loads read at grid point `t`, in terms of the program's arguments.

  Grid point `t` (of 20) works on user rows 5000·t … 5000·t + 4999. Its first two operand blocks are those rows
  of the node messages and of the user embeddings; the two weight blocks and the bias block are whole arrays,
  the same at every point. The weight arrays were made by the host before the region: the left and the right
  128 columns of W, each transposed, so entry [k, q] of the first is W[q, k] and of the second W[q, 128 + k];
  the bias array is b viewed as one row.
-/
import proofs.«152994_j19146964205949_1_alg».proof.Proof.Gen.KernelIdeal.Frame
import proofs.«152994_j19146964205949_1_alg».proof.Proof.Spec
import Idealize.ShloMosaic.Lib.StableHlo.Run
import Idealize.ShloMosaic.Lib.Pipeline.Value
import Idealize.ShloMosaic.Lib.ValueIdx

noncomputable section

namespace Cert.KernelIdeal.Operands

open Cert.KernelIdeal Cert.KernelIdeal.Gen Idealize.ShloMosaic Idealize.ShloMosaic.TcCoe Idealize.SL.Sem
open Idealize.ShloMosaic.StableHlo Idealize.ShloMosaic.ValueIdx Cert.Hyper

variable (m : (ℓ : Loc nD τ sig) → Buf (Elt Ideal) ℓ)

/-! ## The arrays the host made before the region -/

/-- A 128-column slice of W starting at column `off`, transposed (and changed to the product's input format, which
    is the identity on extended reals). -/
def wSlice (W : Vec Ideal S128x256 .f32) (off : Nat) (hs : S128x256.Slices ![0, off] S128x128) : Vec Ideal S128x128 .bf16 :=
  truncf (F := Ideal) .bf16 (transpose S128x128 [1, 0] (extractStridedSlice S128x128 ![0, off] W hs)
    transposes_S128x128_S128x128_1_0) bitsLt_bf16_f32

/-- The first operand's array holds the node messages of the arguments. -/
theorem nodeMsg_entry (c : Dev nD) :
    (V m c main_v12 : Vec Ideal S100000x128 .f32)
      = nodeMsg (m ((c : Thread nD τ).loc main_arg1)) (m ((c : Thread nD τ).loc main_arg2))
          (m ((c : Thread nD τ).loc main_arg3)) (m ((c : Thread nD τ).loc main_arg4)) := by
  generalize hX : nodeMsg (m ((c : Thread nD τ).loc main_arg1)) (m ((c : Thread nD τ).loc main_arg2))
          (m ((c : Thread nD τ).loc main_arg3)) (m ((c : Thread nD τ).loc main_arg4)) = X
  show StableHlo.after hostOps0 (fun b => m (c, b)) (Proc.devRef .tc main_v12) = X
  after_results
  exact hX

/-- The third operand's array: W's left 128 columns, transposed. -/
theorem wLeft_entry (c : Dev nD) :
    (V m c main_v15 : Vec Ideal S128x128 .bf16)
      = wSlice (m ((c : Thread nD τ).loc main_arg5)) 0 slices_S128x256_S128x128_0_0 := by
  generalize hX : wSlice (m ((c : Thread nD τ).loc main_arg5)) 0 slices_S128x256_S128x128_0_0 = X
  show StableHlo.after hostOps0 (fun b => m (c, b)) (Proc.devRef .tc main_v15) = X
  after_results
  exact hX

/-- The fourth operand's array: W's right 128 columns, transposed. -/
theorem wRight_entry (c : Dev nD) :
    (V m c main_v18 : Vec Ideal S128x128 .bf16)
      = wSlice (m ((c : Thread nD τ).loc main_arg5)) 128 slices_S128x256_S128x128_0_128 := by
  generalize hX : wSlice (m ((c : Thread nD τ).loc main_arg5)) 128 slices_S128x256_S128x128_0_128 = X
  show StableHlo.after hostOps0 (fun b => m (c, b)) (Proc.devRef .tc main_v18) = X
  after_results
  exact hX

/-- The fifth operand's array: the bias as one row. -/
theorem bias_entry (c : Dev nD) :
    (V m c main_v19 : Vec Ideal S1x128 .f32)
      = shapeCast S1x128 (m ((c : Thread nD τ).loc main_arg6)) shapeCasts_S128_S1x128 := by
  generalize hX : shapeCast S1x128 (m ((c : Thread nD τ).loc main_arg6)) shapeCasts_S128_S1x128 = X
  show StableHlo.after hostOps0 (fun b => m (c, b)) (Proc.devRef .tc main_v19) = X
  after_results
  exact hX

/-! ## Those arrays read at an index -/

/-- A transposed column slice of W at [k, q] is W at row q and the slice's column k. -/
theorem wSlice_at (W : Vec Ideal S128x256 .f32) (off : Nat) (hs : S128x256.Slices ![0, off] S128x128)
    (k q : Fin 128) (col : Fin 256) (hcol : col.val = off + k.val) :
    wSlice W off hs (ix2 k q) = W (ix2 q col) := by
  show transpose S128x128 [1, 0] (extractStridedSlice S128x128 ![0, off] W hs) transposes_S128x128_S128x128_1_0 (ix2 k q) = _
  refine (transpose_apply [1, 0] _ transposes_S128x128_S128x128_1_0 (ix2 k q) (ix2 q k) (fun b => match b with
    | ⟨0, _⟩ => rfl
    | ⟨1, _⟩ => rfl)).trans ?_
  exact extractStridedSlice_apply ![0, off] W hs (ix2 q k) (ix2 q col) (fun a => match a with
    | ⟨0, _⟩ => by show q.val = 0 + q.val; omega
    | ⟨1, _⟩ => by show col.val = off + k.val; exact hcol)

theorem wLeft_at (c : Dev nD) (k q : Fin 128) :
    (V m c main_v15 : Vec Ideal S128x128 .bf16) (ix2 k q)
      = (m ((c : Thread nD τ).loc main_arg5) : Vec Ideal S128x256 .f32) (ix2 q (⟨k.val, by omega⟩ : Fin 256)) :=
  (congrFun (wLeft_entry m c) (ix2 k q)).trans (wSlice_at _ 0 slices_S128x256_S128x128_0_0 k q _ (by show k.val = 0 + k.val; omega))

theorem wRight_at (c : Dev nD) (k q : Fin 128) :
    (V m c main_v18 : Vec Ideal S128x128 .bf16) (ix2 k q)
      = (m ((c : Thread nD τ).loc main_arg5) : Vec Ideal S128x256 .f32) (ix2 q (⟨128 + k.val, by omega⟩ : Fin 256)) :=
  (congrFun (wRight_entry m c) (ix2 k q)).trans (wSlice_at _ 128 slices_S128x256_S128x128_0_128 k q _ rfl)

theorem bias_at (c : Dev nD) (q : Fin 128) :
    (V m c main_v19 : Vec Ideal S1x128 .f32) (ix2 (0 : Fin 1) q)
      = (m ((c : Thread nD τ).loc main_arg6) : Vec Ideal S128 .f32) (ix1 q) :=
  (congrFun (bias_entry m c) (ix2 (0 : Fin 1) q)).trans
    (shapeCast_apply _ shapeCasts_S128_S1x128 (ix2 (0 : Fin 1) q) (ix1 q) (by
      rw [Shape.rowMajor_val_one, Shape.rowMajor_val_two]
      show q.val = 0 * 128 + q.val
      omega))

/-! ## The blocks at a grid point -/

/-- The printed index maps, decided over the 20 grid points: the row-blocked windows sit at block row `t`,
    the whole-array windows at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the first window's block at point `t` is row 5000·t + p of its array, whatever the array holds. -/
theorem read_rows0 (A : Vec Ideal S100000x128 .f32) (t : Fin cfg0.N) (p : Fin 5000) (k : Fin 128) (r : Fin 100000)
    (hr : r.val = t.val * 5000 + p.val) :
    (((cfg0.win 0).blk t).view.read (Elt Ideal) A : Vec Ideal S5000x128 .f32) (ix2 p k) = A (ix2 r k) := by
  obtain ⟨e0, e1, -⟩ := index_facts t
  rw [View.read_apply]
  refine congrArg A (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The same for the second window. -/
theorem read_rows1 (A : Vec Ideal S100000x128 .f32) (t : Fin cfg0.N) (p : Fin 5000) (k : Fin 128) (r : Fin 100000)
    (hr : r.val = t.val * 5000 + p.val) :
    (((cfg0.win 1).blk t).view.read (Elt Ideal) A : Vec Ideal S5000x128 .f32) (ix2 p k) = A (ix2 r k) := by
  obtain ⟨-, -, e0, e1, -⟩ := index_facts t
  rw [View.read_apply]
  refine congrArg A (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- The third window's block is its whole array. -/
theorem read_whole2 (A : Vec Ideal S128x128 .bf16) (t : Fin cfg0.N) (k q : Fin 128) :
    (((cfg0.win 2).blk t).view.read (Elt Ideal) A : Vec Ideal S128x128 .bf16) (ix2 k q) = A (ix2 k q) := by
  obtain ⟨-, -, -, -, e0, e1, -⟩ := index_facts t
  rw [View.read_apply]
  refine congrArg A (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The fourth window's block is its whole array. -/
theorem read_whole3 (A : Vec Ideal S128x128 .bf16) (t : Fin cfg0.N) (k q : Fin 128) :
    (((cfg0.win 3).blk t).view.read (Elt Ideal) A : Vec Ideal S128x128 .bf16) (ix2 k q) = A (ix2 k q) := by
  obtain ⟨-, -, -, -, -, -, e0, e1, -⟩ := index_facts t
  rw [View.read_apply]
  refine congrArg A (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The fifth window's block is its whole one-row array. -/
theorem read_whole4 (A : Vec Ideal S1x128 .f32) (t : Fin cfg0.N) (q : Fin 128) :
    (((cfg0.win 4).blk t).view.read (Elt Ideal) A : Vec Ideal S1x128 .f32) (ix2 (0 : Fin 1) q) = A (ix2 (0 : Fin 1) q) := by
  obtain ⟨-, -, -, -, -, -, -, -, e0, e1, -⟩ := index_facts t
  rw [View.read_apply]
  refine congrArg A (funext fun a => Fin.ext ?_)
  match a with
  | ⟨0, _⟩ => show win0_4.index t (0 : Fin 2) * 1 + 1 * 0 = 0; rw [e0]
  | ⟨1, _⟩ => show win0_4.index t (1 : Fin 2) * 128 + 1 * q.val = q.val; rw [e1]; omega

end Cert.KernelIdeal.Operands

end
-- ==== Proof.Payload.lean ====
/-
  One output element of the body's stored value, at the ideal values.

  The body loads a block `x0` of 5000 message rows, the matching block `x1` of 5000 embedding rows, the two
  128 x 128 weight blocks `x2`, `x3` and the 1 x 128 bias row `x4`, and stores
      x0 · x2  +  (x0 ⊙ x1) · x3  +  bias (one row, repeated down the block).
  Over the extended reals a change of float format is the identity and a matrix product into a zero
  accumulator is the plain sum of the products over the contracted axis, so the stored element at row `p`,
  column `q` is
      Σ_k x0[p,k]·x2[k,q]  +  Σ_k (x0[p,k]·x1[p,k])·x3[k,q]  +  x4[0,q].
-/
import proofs.«152994_j19146964205949_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.TcCoe Idealize.ShloMosaic.ValueIdx

/-! ## The product's operand indices, axis by axis -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] x [128,128] product into the zero accumulator, at row `p` and column `q`: the sum over the
    128 contracted positions of left[p,k] · right[k,q]. -/
theorem matmul_at (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The bias row repeated down the block reads its column. -/
theorem bias_at (x4 : Vec Ideal S1x128 .f32) (p : Fin 5000) (q : Fin 128) :
    broadcastTo S5000x128 x4 broadcasts_S1x128_S5000x128 (ix2 p q) = x4 (ix2 (0 : Fin 1) q) :=
  broadcastTo_apply x4 broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- THE STORED ELEMENT at row `p`, column `q` of the block. -/
theorem stored_at (x0 x1 : Vec Ideal S5000x128 .f32) (x2 x3 : Vec Ideal S128x128 .bf16) (x4 : Vec Ideal S1x128 .f32)
    (p : Fin 5000) (q : Fin 128) :
    k0_pay1 (F := Ideal) x0 x1 x2 x3 x4 (ix2 p q)
      = (∑ k : Fin 128, x0 (ix2 p k) * x2 (ix2 k q)) + (∑ k : Fin 128, (x0 (ix2 p k) * x1 (ix2 p k)) * x3 (ix2 k q))
        + x4 (ix2 (0 : Fin 1) q) := by
  unfold k0_pay1
  simp only [shapeCast_self]
  rw [addf_apply, addf_apply, matmul_at, matmul_at, bias_at]
  rfl

end Cert.KernelIdeal.Payload

end
-- ==== Proof.Messages.lean ====
/-
  The message array after the run.

  Grid point `t` writes back rows 5000·t … 5000·t + 4999 of the result array, and what it writes is the stored
  value of Payload.lean over that point's blocks. Reading the blocks as rows of the arguments (Operands.lean)
  turns the stored element at block row `p`, column `q` into `msgAt` at user row 5000·t + p: the block is the
  matching block of `msgOf`. The twenty blocks cover all 100000 rows, so the array ends holding `msgOf` of the
  node messages, the user embeddings, W and b.
-/
import proofs.«152994_j19146964205949_1_alg».proof.Proof.Operands
import proofs.«152994_j19146964205949_1_alg».proof.Proof.Payload

noncomputable section

namespace Cert.KernelIdeal.Messages

open Cert.KernelIdeal Cert.KernelIdeal.Gen Idealize.ShloMosaic Idealize.ShloMosaic.TcCoe Idealize.SL.Sem
open Idealize.ShloMosaic.ValueIdx Cert.Hyper Cert.KernelIdeal.Operands
open Idealize.ShloMosaic.Pipeline (Dat)

theorem hz : (![0, 0] : Fin 2 → Nat) = fun _ => 0 := funext fun a => by fin_cases a <;> rfl

/-- ONE ELEMENT, over ANY five blocks that read as rows of arrays `nm`, `ue`, W and b: the stored element at block
    row `p`, column `q` of point `t` is `msgAt` at user row 5000·t + p. -/
theorem point_value (x0 x1 : Vec Ideal S5000x128 .f32) (x2 x3 : Vec Ideal S128x128 .bf16) (x4 : Vec Ideal S1x128 .f32)
    (nm ue : Vec Ideal S100000x128 .f32) (W : Vec Ideal S128x256 .f32) (b : Vec Ideal S128 .f32) (t : Fin cfg0.N)
    (h0 : ∀ (p : Fin 5000) (k : Fin 128) (r : Fin 100000), r.val = t.val * 5000 + p.val → x0 (ix2 p k) = nm (ix2 r k))
    (h1 : ∀ (p : Fin 5000) (k : Fin 128) (r : Fin 100000), r.val = t.val * 5000 + p.val → x1 (ix2 p k) = ue (ix2 r k))
    (h2 : ∀ k q : Fin 128, x2 (ix2 k q) = W (ix2 q (⟨k.val, by omega⟩ : Fin 256)))
    (h3 : ∀ k q : Fin 128, x3 (ix2 k q) = W (ix2 q (⟨128 + k.val, by omega⟩ : Fin 256)))
    (h4 : ∀ q : Fin 128, x4 (ix2 (0 : Fin 1) q) = b (ix1 q))
    (p : Fin 5000) (q : Fin 128) (r : Fin 100000) (q' : Fin 128) (hr : r.val = t.val * 5000 + p.val) (hq : q'.val = q.val) :
    k0_pay1 (F := Ideal) x0 x1 x2 x3 x4 (ix2 p q) = msgAt nm ue W b r q' := by
  obtain rfl : q' = q := Fin.ext hq
  refine (Payload.stored_at x0 x1 x2 x3 x4 p q').trans ?_
  unfold msgAt
  refine congrArg₂ (· + ·) (congrArg₂ (· + ·) (Finset.sum_congr rfl fun k _ => ?_) (Finset.sum_congr rfl fun k _ => ?_)) (h4 q')
  · rw [h0 p k r hr, h2 k q']
  · rw [h0 p k r hr, h1 p k r hr, h3 k q']

/-- So what the point stores, cut to its block, is the point's block of `msgOf nm ue W b`. -/
theorem block_value (x0 x1 : Vec Ideal S5000x128 .f32) (x2 x3 : Vec Ideal S128x128 .bf16) (x4 : Vec Ideal S1x128 .f32)
    (nm ue : Vec Ideal S100000x128 .f32) (W : Vec Ideal S128x256 .f32) (b : Vec Ideal S128 .f32) (t : Fin cfg0.N)
    (h0 : ∀ (p : Fin 5000) (k : Fin 128) (r : Fin 100000), r.val = t.val * 5000 + p.val → x0 (ix2 p k) = nm (ix2 r k))
    (h1 : ∀ (p : Fin 5000) (k : Fin 128) (r : Fin 100000), r.val = t.val * 5000 + p.val → x1 (ix2 p k) = ue (ix2 r k))
    (h2 : ∀ k q : Fin 128, x2 (ix2 k q) = W (ix2 q (⟨k.val, by omega⟩ : Fin 256)))
    (h3 : ∀ k q : Fin 128, x3 (ix2 k q) = W (ix2 q (⟨128 + k.val, by omega⟩ : Fin 256)))
    (h4 : ∀ q : Fin 128, x4 (ix2 (0 : Fin 1) q) = b (ix1 q)) :
    (cfg0.win 5).cut (grid0.coords t) (out0_5 x0 x1 x2 x3 x4)
      = ((cfg0.win 5).blk t).view.read (Elt Ideal) (msgOf nm ue W b) := by
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, -, -, -, -, e0, e1⟩ := index_facts t
  show k0_pay1 (F := Ideal) x0 x1 x2 x3 x4 (ix2 p q)
    = msgAt nm ue W b (((cfg0.win 5).blk t).view.emb (ix2 p q) 0) (((cfg0.win 5).blk t).view.emb (ix2 p q) 1)
  exact point_value x0 x1 x2 x3 x4 nm ue W b t h0 h1 h2 h3 h4 p q _ _
    (by show win0_5.index t (0 : Fin 2) * 5000 + 1 * p.val = t.val * 5000 + p.val; rw [e0]; omega)
    (by show win0_5.index t (1 : Fin 2) * 128 + 1 * q.val = q.val; rw [e1]; omega)

variable (m : (ℓ : Loc nD τ sig) → Buf (Elt Ideal) ℓ)

/-- The node messages of the program's arguments. -/
def nodeMsgOf (c : Dev nD) : Vec Ideal S100000x128 .f32 :=
  nodeMsg (m ((c : Thread nD τ).loc main_arg1)) (m ((c : Thread nD τ).loc main_arg2))
    (m ((c : Thread nD τ).loc main_arg3)) (m ((c : Thread nD τ).loc main_arg4))

/-- The message array of the program's arguments. -/
def msgArr (c : Dev nD) : Vec Ideal S100000x128 .f32 :=
  msgOf (nodeMsgOf m c) (m ((c : Thread nD τ).loc main_arg0)) (m ((c : Thread nD τ).loc main_arg5))
    (m ((c : Thread nD τ).loc main_arg6))

/-! ## The five blocks of a point as rows of the arguments -/

theorem msgBlock_at (c : Dev nD) (t : Fin cfg0.N) (p : Fin 5000) (k : Fin 128) (r : Fin 100000)
    (hr : r.val = t.val * 5000 + p.val) :
    (iblk m c 0 t : Vec Ideal S5000x128 .f32) (ix2 p k) = nodeMsgOf m c (ix2 r k) := by
  unfold iblk nodeMsgOf
  exact (read_rows0 (V m c main_v12) t p k r hr).trans (congrFun (nodeMsg_entry m c) (ix2 r k))

theorem userBlock_at (c : Dev nD) (t : Fin cfg0.N) (p : Fin 5000) (k : Fin 128) (r : Fin 100000)
    (hr : r.val = t.val * 5000 + p.val) :
    (iblk m c 1 t : Vec Ideal S5000x128 .f32) (ix2 p k)
      = (m ((c : Thread nD τ).loc main_arg0) : Vec Ideal S100000x128 .f32) (ix2 r k) := by
  unfold iblk
  exact (read_rows1 (V m c main_arg0) t p k r hr).trans (congrFun (V_main_arg0 m c) (ix2 r k))

theorem wLeftBlock_at (c : Dev nD) (t : Fin cfg0.N) (k q : Fin 128) :
    (iblk m c 2 t : Vec Ideal S128x128 .bf16) (ix2 k q)
      = (m ((c : Thread nD τ).loc main_arg5) : Vec Ideal S128x256 .f32) (ix2 q (⟨k.val, by omega⟩ : Fin 256)) := by
  unfold iblk
  exact (read_whole2 (V m c main_v15) t k q).trans (wLeft_at m c k q)

theorem wRightBlock_at (c : Dev nD) (t : Fin cfg0.N) (k q : Fin 128) :
    (iblk m c 3 t : Vec Ideal S128x128 .bf16) (ix2 k q)
      = (m ((c : Thread nD τ).loc main_arg5) : Vec Ideal S128x256 .f32) (ix2 q (⟨128 + k.val, by omega⟩ : Fin 256)) := by
  unfold iblk
  exact (read_whole3 (V m c main_v18) t k q).trans (wRight_at m c k q)

theorem biasBlock_at (c : Dev nD) (t : Fin cfg0.N) (q : Fin 128) :
    (iblk m c 4 t : Vec Ideal S1x128 .f32) (ix2 (0 : Fin 1) q)
      = (m ((c : Thread nD τ).loc main_arg6) : Vec Ideal S128 .f32) (ix1 q) := by
  unfold iblk
  exact (read_whole4 (V m c main_v19) t q).trans (bias_at m c q)

/-! ## From the blocks to the array -/

/-- WHAT POINT `t` WRITES BACK is its block of the message array of the arguments. -/
theorem flushed_eq (c : Dev nD) (t : Fin cfg0.N) :
    (dats m 0 c).flushed 5 t = ((cfg0.win 5).blk t).view.read (Elt Ideal) (msgArr m c) := by
  show (cfg0.win 5).cut (grid0.coords t) ((dats m 0 c).after 5 t) = _
  rw [after0_5]
  unfold msgArr
  exact block_value (iblk m c 0 t) (iblk m c 1 t) (iblk m c 2 t) (iblk m c 3 t) (iblk m c 4 t)
    (nodeMsgOf m c) (m ((c : Thread nD τ).loc main_arg0)) (m ((c : Thread nD τ).loc main_arg5))
    (m ((c : Thread nD τ).loc main_arg6)) t
    (fun p k r hr => msgBlock_at m c t p k r hr) (fun p k r hr => userBlock_at m c t p k r hr)
    (fun k q => wLeftBlock_at m c t k q) (fun k q => wRightBlock_at m c t k q) (fun q => biasBlock_at m c t q)

/-- An index of the result array is in point `t`'s block iff each coordinate is in the block's range. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v20).slice (win0_5.rect t)).set ↔ _
  rw [View.set_slice_whole, Rect.mem_set_unit]
  exact Iff.rfl

/-- Every row is in some point's block: row `r` in that of point `r / 5000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, -, -, -, -, e0, e1⟩ := index_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e1]
    omega

/-- THE MESSAGE ARRAY AFTER THE RUN is the message array of the arguments. -/
theorem final (c : Dev nD) : (dats m 0 c).arrAt 5 cfg0.N = msgArr m c :=
  (dats m 0 c).arrAt_eq_of_cover 5 (msgArr m c) (fun t _ => flushed_eq m c t) cover

end Cert.KernelIdeal.Messages

end
-- ==== Proof.Items.lean ====
/-
  The item embeddings after the run.

  The host operations after the region are the last stage of the message pass: they read the message array the
  region wrote and the three edge arrays, which nothing has changed, and write the result. So the result is
  `tailOf` of the message array and the edge arrays of the arguments.
-/
import proofs.«152994_j19146964205949_1_alg».proof.Proof.Gen.KernelIdeal.Frame
import proofs.«152994_j19146964205949_1_alg».proof.Proof.Spec
import Idealize.ShloMosaic.Lib.StableHlo.Run
import Idealize.ShloMosaic.Lib.Pipeline.FrameSuffix

noncomputable section

namespace Cert.KernelIdeal.Items

open Cert.KernelIdeal Cert.KernelIdeal.Gen Idealize.ShloMosaic Idealize.ShloMosaic.TcCoe Idealize.SL.Sem
open Idealize.ShloMosaic.StableHlo Cert.Hyper

/-- The host operations after the region, run from ANY buffer contents `Wv`, leave in the result buffer the last
    stage applied to what `Wv` holds in the message buffer and the three edge buffers. -/
theorem tail_value (Wv : Valuation τ sig (Elt Ideal)) :
    (StableHlo.after hostOps1 Wv (Proc.devRef .tc main_v33) : Vec Ideal S50000x128 .f32)
      = tailOf (Wv (Proc.devRef .tc main_v20)) (Wv (Proc.devRef .tc main_arg2)) (Wv (Proc.devRef .tc main_arg3))
          (Wv (Proc.devRef .tc main_arg4)) := by
  generalize hX : tailOf (Wv (Proc.devRef .tc main_v20)) (Wv (Proc.devRef .tc main_arg2)) (Wv (Proc.devRef .tc main_arg3))
          (Wv (Proc.devRef .tc main_arg4)) = X
  after_results
  exact hX

variable (m : (ℓ : Loc nD τ sig) → Buf (Elt Ideal) ℓ)

/-- After the region the buffers hold: the message buffer what the region left, the edge buffers the arguments. -/
theorem items_after (c : Dev nD) :
    (Pipeline.afterTail₀ cfgs (dats m) 0 (V0 m) [hostOps1] c main_v33 : Vec Ideal S50000x128 .f32)
      = tailOf ((dats m 0 c).arrAt 5 cfg0.N) (m ((c : Thread nD τ).loc main_arg2)) (m ((c : Thread nD τ).loc main_arg3))
          (m ((c : Thread nD τ).loc main_arg4)) := by
  unfold Pipeline.afterTail₀
  have hl : ([hostOps1] : List (List (HloOp τ sig (Elt Ideal)))).flatten = hostOps1 := by
    simp only [List.flatten_cons, List.flatten_nil, List.append_nil]
  rw [hl, tail_value]
  have e20 : Pipeline.withArrays (cfgs 0).spec c (V0 m c) (fun w => (dats m 0 c).arrAt w (cfgs 0).N) (Proc.devRef .tc main_v20)
      = (dats m 0 c).arrAt 5 cfg0.N :=
    Pipeline.withArrays_arr spec0 launch0.win.arr_inj c (V0 m c) (fun w => (dats m 0 c).arrAt w cfg0.N) 5
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne spec0 c (V0 m c) _ main_arg2 (by exact (by decide : ∀ w, Pipeline.arrRef spec0 w ≠ main_arg2))).trans (V_main_arg2 m c)
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne spec0 c (V0 m c) _ main_arg3 (by exact (by decide : ∀ w, Pipeline.arrRef spec0 w ≠ main_arg3))).trans (V_main_arg3 m c)
  have e4 : Pipeline.withArrays (cfgs 0).spec c (V0 m c) (fun w => (dats m 0 c).arrAt w (cfgs 0).N) (Proc.devRef .tc main_arg4)
      = m ((c : Thread nD τ).loc main_arg4) :=
    (Pipeline.withArrays_of_ne spec0 c (V0 m c) _ main_arg4 (by exact (by decide : ∀ w, Pipeline.arrRef spec0 w ≠ main_arg4))).trans (V_main_arg4 m c)
  rw [e20, e2, e3, e4]

end Cert.KernelIdeal.Items

end
-- ==== Proof.KernelRun.lean ====
/-
  The kernel program's run, with both results named.

  Every weakly fair execution ends with the message array at `msgArr` of the arguments (Messages.lean), the item
  embeddings at the last stage applied to it (Items.lean), and the seven arguments unchanged: the first argument
  is staged by an input window and never written back, the others bypass the region and no host operation
  writes them.
-/
import proofs.«152994_j19146964205949_1_alg».proof.Proof.Messages
import proofs.«152994_j19146964205949_1_alg».proof.Proof.Items

noncomputable section

namespace Cert.KernelIdeal.Results

open Cert.KernelIdeal Cert.KernelIdeal.Gen Idealize.ShloMosaic Idealize.ShloMosaic.TcCoe Idealize.SL.Sem
open Cert.Hyper Cert.KernelIdeal.Messages Cert.KernelIdeal.Items

variable (m : (ℓ : Loc nD τ sig) → Buf (Elt Ideal) ℓ) (ρ : Dev nD → PrngReg)

/-- The item embeddings of the program's arguments. -/
def itemsArr (c : Dev nD) : Vec Ideal S50000x128 .f32 :=
  tailOf (msgArr m c) (m ((c : Thread nD τ).loc main_arg2)) (m ((c : Thread nD τ).loc main_arg3))
    (m ((c : Thread nD τ).loc main_arg4))

theorem run : θ_run defs (onTc (τ := τ) (main (F := Ideal))) ⟨m, fun _ => 0, ρ⟩ (fun r => ∀ c : Dev nD,
      r.2.mem ((c.tc : Thread nD τ).loc main_v33) = itemsArr m c
      ∧ r.2.mem ((c.tc : Thread nD τ).loc main_v20) = msgArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v33 (Pipeline.mem_restRefs_of main_v33 (by decide) (by decide))).trans
        ((items_after m c).trans (by unfold itemsArr; rw [final m c])),
      ((h c).1 5).trans (final m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Results

end
-- ==== Proof.RefValue.lean ====
/-
  The reference's message array is `msgOf` of its node messages, and its two results are the shared first and
  last stages around it.

  The reference joins the node messages and the gated node messages side by side into 256 columns and multiplies
  by W transposed: element [r, q] is Σ_{j<256} cat[r, j]·W[q, j]. The first 128 columns of cat are the node
  messages and the last 128 their products with the user embeddings, so splitting the sum at column 128 gives
  the two 128-term sums of `msgAt`; the bias, broadcast along the rows, adds b[q].
-/
import proofs.«152994_j19146964205949_1_alg».proof.Proof.Gen.ReferenceIdeal.Run
import proofs.«152994_j19146964205949_1_alg».proof.Proof.Gen.ReferenceIdeal.Read
import proofs.«152994_j19146964205949_1_alg».proof.Proof.Spec

noncomputable section

namespace Cert.ReferenceIdeal.RefValue

open Cert.ReferenceIdeal Cert.ReferenceIdeal.Gen Idealize.ShloMosaic Idealize.ShloMosaic.TcCoe Idealize.ShloMosaic.ValueIdx
open Cert.ReferenceIdeal.Read Cert.Hyper

/-! ## The joined array read in either half -/

theorem cat_left (a b : Vec Ideal S100000x128 .f32) (r : Fin 100000) (k : Fin 128) (col : Fin 256) (h : col.val = k.val) :
    concatenate S100000x256 1 [⟨S100000x128, a⟩, ⟨S100000x128, b⟩] concatenates_S100000x128_S100000x128_S100000x256_d1 (ix2 r col)
      = a (ix2 r k) :=
  concatenate_pair_apply_left 1 a b concatenates_S100000x128_S100000x128_S100000x256_d1 (ix2 r col) rfl (ix2 r k)
    (fun bb => match bb with
      | ⟨0, _⟩ => rfl
      | ⟨1, _⟩ => h.symm)

theorem cat_right (a b : Vec Ideal S100000x128 .f32) (r : Fin 100000) (k : Fin 128) (col : Fin 256) (h : col.val = 128 + k.val) :
    concatenate S100000x256 1 [⟨S100000x128, a⟩, ⟨S100000x128, b⟩] concatenates_S100000x128_S100000x128_S100000x256_d1 (ix2 r col)
      = b (ix2 r k) :=
  concatenate_pair_apply_right 1 a b concatenates_S100000x128_S100000x128_S100000x256_d1 (ix2 r col) rfl rfl (ix2 r k)
    (fun bb hb => match bb, hb with
      | ⟨0, _⟩, _ => rfl
      | ⟨1, _⟩, hb => absurd rfl hb)
    (by show k.val + 128 = col.val; omega)

/-! ## The product's operand indices as coordinates -/

theorem lidx_eq (r : Fin 100000) (q : Fin 128) (col : Fin 256) : lidx_main_v16 (ix2 r q) col = ix2 r col :=
  funext fun a => Fin.ext (by match a with | ⟨0, _⟩ => rfl | ⟨1, _⟩ => rfl)

theorem ridx_eq (r : Fin 100000) (q : Fin 128) (col : Fin 256) : idx_main_v15 (ridx_main_v16 (ix2 r q) col) = ix2 q col :=
  funext fun a => Fin.ext (by match a with | ⟨0, _⟩ => rfl | ⟨1, _⟩ => rfl)

theorem bidx_eq (r : Fin 100000) (q : Fin 128) : idx_main_v17 (idx_main_v18 (ix2 r q)) = ix1 q :=
  funext fun a => Fin.ext (by match a with | ⟨0, _⟩ => rfl)

/-! ## The message array -/

/-- One element of the joined-array product plus bias, over ANY node-message array `nm`: the sum over the 256
    joined columns splits at column 128 into the two sums of `msgAt`. -/
theorem linear_at (nm x0 : Vec Ideal S100000x128 .f32) (x5 : Vec Ideal S128x256 .f32) (x6 : Vec Ideal S128 .f32)
    (r : Fin 100000) (q : Fin 128) :
    FloatOps.addf (F := Ideal) (φ := .f32)
        (∑ k : Fin 256, concatenate S100000x256 1 [⟨S100000x128, nm⟩, ⟨S100000x128, mulf (F := Ideal) (φ := .f32) nm x0⟩]
            concatenates_S100000x128_S100000x128_S100000x256_d1 (ix2 r k) * x5 (ix2 q k))
        (x6 (ix1 q))
      = msgAt nm x0 x5 x6 r q := by
  show (∑ k : Fin 256, concatenate S100000x256 1 [⟨S100000x128, nm⟩, ⟨S100000x128, mulf (F := Ideal) (φ := .f32) nm x0⟩]
            concatenates_S100000x128_S100000x128_S100000x256_d1 (ix2 r k) * x5 (ix2 q k)) + x6 (ix1 q) = _
  rw [sum_two_halves]
  unfold msgAt
  refine congrArg₂ (· + ·) (congrArg₂ (· + ·) (Finset.sum_congr rfl fun k _ => ?_) (Finset.sum_congr rfl fun k _ => ?_)) rfl
  · rw [cat_left nm _ r k _ rfl]
  · rw [cat_right nm _ r k _ rfl]
    rfl

/-- THE MIDDLE STAGE: the reference's messages are `msgOf` of its node messages. -/
theorem msg_eq (x0 : Vec Ideal S100000x128 .f32) (x1 : Vec Ideal S50000x128 .f32) (x2 x3 : Vec Ideal S1600000 .i32)
    (x4 : Vec Ideal S1600000 .f32) (x5 : Vec Ideal S128x256 .f32) (x6 : Vec Ideal S128 .f32) :
    val_main_v19 (F := Ideal) x0 x1 x2 x3 x4 x5 x6 = msgOf (val_main_v12 (F := Ideal) x1 x2 x3 x4) x0 x5 x6 := by
  funext i
  obtain ⟨r, q, rfl⟩ : ∃ (r : Fin 100000) (q : Fin 128), i = ix2 r q := ⟨i 0, i 1, eq_ix2 i⟩
  rw [val_main_v19_apply, val_main_v16_apply, val_main_v18_apply, val_main_v17_apply, bidx_eq, msgOf_apply]
  simp only [val_main_v15_apply, lidx_eq, ridx_eq]
  unfold val_main_v14 val_main_v13
  exact linear_at (val_main_v12 (F := Ideal) x1 x2 x3 x4) x0 x5 x6 r q

/-- THE FIRST STAGE is the shared one. -/
theorem nodeMsg_eq (x1 : Vec Ideal S50000x128 .f32) (x2 x3 : Vec Ideal S1600000 .i32) (x4 : Vec Ideal S1600000 .f32) :
    val_main_v12 (F := Ideal) x1 x2 x3 x4 = nodeMsg x1 x2 x3 x4 := rfl

/-- THE LAST STAGE is the shared one, applied to the messages. -/
theorem tail_eq (x0 : Vec Ideal S100000x128 .f32) (x1 : Vec Ideal S50000x128 .f32) (x2 x3 : Vec Ideal S1600000 .i32)
    (x4 : Vec Ideal S1600000 .f32) (x5 : Vec Ideal S128x256 .f32) (x6 : Vec Ideal S128 .f32) :
    val_main_v32 (F := Ideal) x0 x1 x2 x3 x4 x5 x6 = tailOf (val_main_v19 (F := Ideal) x0 x1 x2 x3 x4 x5 x6) x2 x3 x4 := rfl

end Cert.ReferenceIdeal.RefValue

end
-- ==== Proof.lean ====
/-
  Hypergraph message passing: the kernel program against its jnp reference, over the extended reals.

  Both programs compute, from the user and item embeddings, the edges (rows, cols, vals) and the linear layer
  (W, b):
    1. the node messages  nm = Σ_{edges e into user r} vals[e] · item[cols[e]]           (gather, scale, add up),
    2. the messages       msg[r, q] = Σ_{j<256} cat[r, j] · W[q, j] + b[q],  cat = [nm | nm ⊙ user],
    3. the item result    out = Σ_{edges e into item c} vals[e] · msg[rows[e]]          (gather, scale, add up).
  Stages 1 and 3 are the same host operations in both programs and are carried as one function each. Stage 2 is
  where they differ: the reference multiplies the joined 256-column array by W transposed; the kernel, twenty
  row blocks of 5000 users at a time, multiplies nm by the left half of W and nm ⊙ user by the right half and
  adds the two products. Over the extended reals a format change is the identity and addition is commutative
  and associative, so the 256-term sum is the sum of its two 128-term halves and the two messages agree element
  by element, for every input: the precondition is not used by the value claim.

  The frames of the two kernel programs are the generated ones; the reference's frame is its generated run with
  the results dropped; the idealization rewrote nothing, so `preserves` is trivial.
-/
import proofs.«152994_j19146964205949_1_alg».proof.Defs
import proofs.«152994_j19146964205949_1_alg».proof.Proof.Gen.Kernel
import proofs.«152994_j19146964205949_1_alg».proof.Proof.Gen.Kernel.Skeleton
import proofs.«152994_j19146964205949_1_alg».proof.Proof.Gen.Kernel.Launch
import proofs.«152994_j19146964205949_1_alg».proof.Proof.Gen.Kernel.Points
import proofs.«152994_j19146964205949_1_alg».proof.Proof.Gen.Kernel.Frame
import proofs.«152994_j19146964205949_1_alg».proof.Proof.Gen.KernelIdeal
import proofs.«152994_j19146964205949_1_alg».proof.Proof.Gen.KernelIdeal.Skeleton
import proofs.«152994_j19146964205949_1_alg».proof.Proof.Gen.KernelIdeal.Launch
import proofs.«152994_j19146964205949_1_alg».proof.Proof.Gen.KernelIdeal.Points
import proofs.«152994_j19146964205949_1_alg».proof.Proof.Gen.KernelIdeal.Frame
import proofs.«152994_j19146964205949_1_alg».proof.Proof.Gen.ReferenceIdeal
import proofs.«152994_j19146964205949_1_alg».proof.Proof.Gen.ReferenceIdeal.Run
import proofs.«152994_j19146964205949_1_alg».proof.Proof.Gen.ReferenceIdeal.Read
import proofs.«152994_j19146964205949_1_alg».proof.Proof.Gen.Pre_finite_inputs
import proofs.«152994_j19146964205949_1_alg».proof.Proof.KernelRun
import proofs.«152994_j19146964205949_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

/-- Both programs end with the item result at `itemsArr` and the messages at `msgArr` of the (agreeing) arguments:
    the kernel program by its run read back, the reference by its run, whose two terms are the shared last stage
    over the messages and the messages themselves, equal to the kernel's by the split of the 256-term sum. -/
theorem algebraic : Cert.algebraic_KernelIdeal_ReferenceIdeal := by
  intro m ρ m' ρ' _ hagree
  refine ⟨fun c => Cert.KernelIdeal.Results.itemsArr m c, fun c => Cert.KernelIdeal.Messages.msgArr m c,
    Cert.KernelIdeal.Results.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [a0, a1, a2, a3, a4, a5, a6, Cert.ReferenceIdeal.Read.val_main_v32_eq, Cert.ReferenceIdeal.RefValue.tail_eq,
      Cert.ReferenceIdeal.RefValue.msg_eq, Cert.ReferenceIdeal.RefValue.nodeMsg_eq]
    rfl
  · obtain ⟨a0, a1, a2, a3, a4, a5, a6⟩ := hagree c
    rw [a0, a1, a2, a3, a4, a5, a6, Cert.ReferenceIdeal.Read.val_main_v19_eq,
      Cert.ReferenceIdeal.RefValue.msg_eq, Cert.ReferenceIdeal.RefValue.nodeMsg_eq]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
